-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x10 : Shape := ⟨2, ![131072, 10]⟩
abbrev S128x10 : Shape := ⟨2, ![128, 10]⟩
abbrev S128x128 : Shape := ⟨2, ![128, 128]⟩
abbrev S_ : Shape := ⟨0, ![]⟩

class Facts : Prop where
  bcast_S_S131072x10 : S_.BroadcastsInDim S131072x10 (![] : Fin 0 → Fin S131072x10.rank)
  reducesTo_S131072x10_S_d0_1 : S131072x10.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S131072x10 .f32) (main_arg1 : FVec F S128x10 .f32) (main_arg2 : FVec F S128x128 .f32) : IVec S_ 1 :=
  let main_v0 : FVec F S131072x10 .f32 := Host.absf main_arg0
  let main_cst : FVec F S_ .f32 := constant S_ .f32 0x7F800000#32
  let main_v1 : FVec F S131072x10 .f32 := broadcastInDim S131072x10 ![] bcast_S_S131072x10 main_cst
  let main_v2 : IVec S131072x10 1 := cmpf .olt main_v0 main_v1
  let main_c : IVec S_ 1 := constantI S_ 1 1#1
  let main_v3 : IVec S_ 1 := (fun x v => Host.reduce IntOp.andi x v reducesTo_S131072x10_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S131072x10 : Shape := ⟨2, ![131072, 10]⟩
abbrev S128x10 : Shape := ⟨2, ![128, 10]⟩
abbrev S128x128 : Shape := ⟨2, ![128, 128]⟩
abbrev S10x131072 : Shape := ⟨2, ![10, 131072]⟩
abbrev S10x128 : Shape := ⟨2, ![10, 128]⟩
abbrev S10x128x1 : Shape := ⟨3, ![10, 128, 1]⟩
abbrev S10x128x128 : Shape := ⟨3, ![10, 128, 128]⟩
abbrev S1280x128 : Shape := ⟨2, ![1280, 128]⟩
abbrev S131072x128 : Shape := ⟨2, ![131072, 128]⟩
abbrev S10x1024 : Shape := ⟨2, ![10, 1024]⟩
abbrev S1024x128 : Shape := ⟨2, ![1024, 128]⟩
abbrev S1x128 : Shape := ⟨2, ![1, 128]⟩

abbrev nBuf : Space → Nat
  | .hbm => 9
  | .vmem => 6
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S10x131072, .f32⟩
  | .hbm, ⟨4, _⟩ => ⟨S10x128, .f32⟩
  | .hbm, ⟨5, _⟩ => ⟨S10x128x1, .f32⟩
  | .hbm, ⟨6, _⟩ => ⟨S10x128x128, .f32⟩
  | .hbm, ⟨7, _⟩ => ⟨S1280x128, .f32⟩
  | .hbm, ⟨8, _⟩ => ⟨S131072x128, .f32⟩
  | .local _ .vmem, ⟨0, _⟩ => ⟨S10x1024, .f32⟩
  | .local _ .vmem, ⟨1, _⟩ => ⟨S10x1024, .f32⟩
  | .local _ .vmem, ⟨2, _⟩ => ⟨S1280x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | _, _ => ⟨S131072x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S131072x10_S10x131072_1_0 : S131072x10.Transposes [1, 0] S10x131072
  transposes_S128x10_S10x128_1_0 : S128x10.Transposes [1, 0] S10x128
  bcast_S10x128_S10x128x1_0_1 : S10x128.BroadcastsInDim S10x128x1 (![0, 1] : Fin 2 → Fin S10x128x1.rank)
  bcast_S10x128x1_S10x128x128_0_1_2 : S10x128x1.BroadcastsInDim S10x128x128 (![0, 1, 2] : Fin 3 → Fin S10x128x128.rank)
  shapeCasts_S10x128x128_S1280x128 : S10x128x128.ShapeCasts S1280x128
  inb_S128x128_S128x128_0_0 : ∀ a, (![0, 0] : Fin 2 → Nat) a + S128x128.size a ≤ S128x128.size a
  h_S128x128 : 0 < S128x128.numel
  inb_S10x1024_S1x128_0_0 : ∀ a, (![0, 0] : Fin 2 → Nat) a + S1x128.size a ≤ S10x1024.size a
  h_S1x128 : 0 < S1x128.numel
  shapeCasts_S1x128_S1x128 : S1x128.ShapeCasts S1x128
  inb_S1280x128_S128x128_0_0 : ∀ a, (![0, 0] : Fin 2 → Nat) a + S128x128.size a ≤ S1280x128.size a
  shapeCasts_S128x128_S128x128 : S128x128.ShapeCasts S128x128
  broadcasts_S1x128_S128x128 : S1x128.Broadcasts S128x128
  inb_S10x1024_S1x128_1_0 : ∀ a, (![1, 0] : Fin 2 → Nat) a + S1x128.size a ≤ S10x1024.size a
  inb_S1280x128_S128x128_128_0 : ∀ a, (![128, 0] : Fin 2 → Nat) a + S128x128.size a ≤ S1280x128.size a
  inb_S10x1024_S1x128_2_0 : ∀ a, (![2, 0] : Fin 2 → Nat) a + S1x128.size a ≤ S10x1024.size a
  inb_S1280x128_S128x128_256_0 : ∀ a, (![256, 0] : Fin 2 → Nat) a + S128x128.size a ≤ S1280x128.size a
  inb_S10x1024_S1x128_3_0 : ∀ a, (![3, 0] : Fin 2 → Nat) a + S1x128.size a ≤ S10x1024.size a
  inb_S1280x128_S128x128_384_0 : ∀ a, (![384, 0] : Fin 2 → Nat) a + S128x128.size a ≤ S1280x128.size a
  inb_S10x1024_S1x128_4_0 : ∀ a, (![4, 0] : Fin 2 → Nat) a + S1x128.size a ≤ S10x1024.size a
  inb_S1280x128_S128x128_512_0 : ∀ a, (![512, 0] : Fin 2 → Nat) a + S128x128.size a ≤ S1280x128.size a
  inb_S10x1024_S1x128_5_0 : ∀ a, (![5, 0] : Fin 2 → Nat) a + S1x128.size a ≤ S10x1024.size a
  inb_S1280x128_S128x128_640_0 : ∀ a, (![640, 0] : Fin 2 → Nat) a + S128x128.size a ≤ S1280x128.size a
  inb_S10x1024_S1x128_6_0 : ∀ a, (![6, 0] : Fin 2 → Nat) a + S1x128.size a ≤ S10x1024.size a
  inb_S1280x128_S128x128_768_0 : ∀ a, (![768, 0] : Fin 2 → Nat) a + S128x128.size a ≤ S1280x128.size a
  inb_S10x1024_S1x128_7_0 : ∀ a, (![7, 0] : Fin 2 → Nat) a + S1x128.size a ≤ S10x1024.size a
  inb_S1280x128_S128x128_896_0 : ∀ a, (![896, 0] : Fin 2 → Nat) a + S128x128.size a ≤ S1280x128.size a
  inb_S10x1024_S1x128_8_0 : ∀ a, (![8, 0] : Fin 2 → Nat) a + S1x128.size a ≤ S10x1024.size a
  inb_S1280x128_S128x128_1024_0 : ∀ a, (![1024, 0] : Fin 2 → Nat) a + S128x128.size a ≤ S1280x128.size a
  inb_S10x1024_S1x128_9_0 : ∀ a, (![9, 0] : Fin 2 → Nat) a + S1x128.size a ≤ S10x1024.size a
  inb_S1280x128_S128x128_1152_0 : ∀ a, (![1152, 0] : Fin 2 → Nat) a + S128x128.size a ≤ S1280x128.size a
  inb_S1024x128_S128x128_0_0 : ∀ a, (![0, 0] : Fin 2 → Nat) a + S128x128.size a ≤ S1024x128.size a
  inb_S10x1024_S1x128_0_128 : ∀ a, (![0, 128] : Fin 2 → Nat) a + S1x128.size a ≤ S10x1024.size a
  inb_S10x1024_S1x128_1_128 : ∀ a, (![1, 128] : Fin 2 → Nat) a + S1x128.size a ≤ S10x1024.size a
  inb_S10x1024_S1x128_2_128 : ∀ a, (![2, 128] : Fin 2 → Nat) a + S1x128.size a ≤ S10x1024.size a
  inb_S10x1024_S1x128_3_128 : ∀ a, (![3, 128] : Fin 2 → Nat) a + S1x128.size a ≤ S10x1024.size a
  inb_S10x1024_S1x128_4_128 : ∀ a, (![4, 128] : Fin 2 → Nat) a + S1x128.size a ≤ S10x1024.size a
  inb_S10x1024_S1x128_5_128 : ∀ a, (![5, 128] : Fin 2 → Nat) a + S1x128.size a ≤ S10x1024.size a
  inb_S10x1024_S1x128_6_128 : ∀ a, (![6, 128] : Fin 2 → Nat) a + S1x128.size a ≤ S10x1024.size a
  inb_S10x1024_S1x128_7_128 : ∀ a, (![7, 128] : Fin 2 → Nat) a + S1x128.size a ≤ S10x1024.size a
  inb_S10x1024_S1x128_8_128 : ∀ a, (![8, 128] : Fin 2 → Nat) a + S1x128.size a ≤ S10x1024.size a
  inb_S10x1024_S1x128_9_128 : ∀ a, (![9, 128] : Fin 2 → Nat) a + S1x128.size a ≤ S10x1024.size a
  inb_S1024x128_S128x128_128_0 : ∀ a, (![128, 0] : Fin 2 → Nat) a + S128x128.size a ≤ S1024x128.size a
  inb_S10x1024_S1x128_0_256 : ∀ a, (![0, 256] : Fin 2 → Nat) a + S1x128.size a ≤ S10x1024.size a
  inb_S10x1024_S1x128_1_256 : ∀ a, (![1, 256] : Fin 2 → Nat) a + S1x128.size a ≤ S10x1024.size a
  inb_S10x1024_S1x128_2_256 : ∀ a, (![2, 256] : Fin 2 → Nat) a + S1x128.size a ≤ S10x1024.size a
  inb_S10x1024_S1x128_3_256 : ∀ a, (![3, 256] : Fin 2 → Nat) a + S1x128.size a ≤ S10x1024.size a
  inb_S10x1024_S1x128_4_256 : ∀ a, (![4, 256] : Fin 2 → Nat) a + S1x128.size a ≤ S10x1024.size a
  inb_S10x1024_S1x128_5_256 : ∀ a, (![5, 256] : Fin 2 → Nat) a + S1x128.size a ≤ S10x1024.size a
  inb_S10x1024_S1x128_6_256 : ∀ a, (![6, 256] : Fin 2 → Nat) a + S1x128.size a ≤ S10x1024.size a
  inb_S10x1024_S1x128_7_256 : ∀ a, (![7, 256] : Fin 2 → Nat) a + S1x128.size a ≤ S10x1024.size a
  inb_S10x1024_S1x128_8_256 : ∀ a, (![8, 256] : Fin 2 → Nat) a + S1x128.size a ≤ S10x1024.size a
  inb_S10x1024_S1x128_9_256 : ∀ a, (![9, 256] : Fin 2 → Nat) a + S1x128.size a ≤ S10x1024.size a
  inb_S1024x128_S128x128_256_0 : ∀ a, (![256, 0] : Fin 2 → Nat) a + S128x128.size a ≤ S1024x128.size a
  inb_S10x1024_S1x128_0_384 : ∀ a, (![0, 384] : Fin 2 → Nat) a + S1x128.size a ≤ S10x1024.size a
  inb_S10x1024_S1x128_1_384 : ∀ a, (![1, 384] : Fin 2 → Nat) a + S1x128.size a ≤ S10x1024.size a
  inb_S10x1024_S1x128_2_384 : ∀ a, (![2, 384] : Fin 2 → Nat) a + S1x128.size a ≤ S10x1024.size a
  inb_S10x1024_S1x128_3_384 : ∀ a, (![3, 384] : Fin 2 → Nat) a + S1x128.size a ≤ S10x1024.size a
  inb_S10x1024_S1x128_4_384 : ∀ a, (![4, 384] : Fin 2 → Nat) a + S1x128.size a ≤ S10x1024.size a
  inb_S10x1024_S1x128_5_384 : ∀ a, (![5, 384] : Fin 2 → Nat) a + S1x128.size a ≤ S10x1024.size a
  inb_S10x1024_S1x128_6_384 : ∀ a, (![6, 384] : Fin 2 → Nat) a + S1x128.size a ≤ S10x1024.size a
  inb_S10x1024_S1x128_7_384 : ∀ a, (![7, 384] : Fin 2 → Nat) a + S1x128.size a ≤ S10x1024.size a
  inb_S10x1024_S1x128_8_384 : ∀ a, (![8, 384] : Fin 2 → Nat) a + S1x128.size a ≤ S10x1024.size a
  inb_S10x1024_S1x128_9_384 : ∀ a, (![9, 384] : Fin 2 → Nat) a + S1x128.size a ≤ S10x1024.size a
  inb_S1024x128_S128x128_384_0 : ∀ a, (![384, 0] : Fin 2 → Nat) a + S128x128.size a ≤ S1024x128.size a
  inb_S10x1024_S1x128_0_512 : ∀ a, (![0, 512] : Fin 2 → Nat) a + S1x128.size a ≤ S10x1024.size a
  inb_S10x1024_S1x128_1_512 : ∀ a, (![1, 512] : Fin 2 → Nat) a + S1x128.size a ≤ S10x1024.size a
  inb_S10x1024_S1x128_2_512 : ∀ a, (![2, 512] : Fin 2 → Nat) a + S1x128.size a ≤ S10x1024.size a
  inb_S10x1024_S1x128_3_512 : ∀ a, (![3, 512] : Fin 2 → Nat) a + S1x128.size a ≤ S10x1024.size a
  inb_S10x1024_S1x128_4_512 : ∀ a, (![4, 512] : Fin 2 → Nat) a + S1x128.size a ≤ S10x1024.size a
  inb_S10x1024_S1x128_5_512 : ∀ a, (![5, 512] : Fin 2 → Nat) a + S1x128.size a ≤ S10x1024.size a
  inb_S10x1024_S1x128_6_512 : ∀ a, (![6, 512] : Fin 2 → Nat) a + S1x128.size a ≤ S10x1024.size a
  inb_S10x1024_S1x128_7_512 : ∀ a, (![7, 512] : Fin 2 → Nat) a + S1x128.size a ≤ S10x1024.size a
  inb_S10x1024_S1x128_8_512 : ∀ a, (![8, 512] : Fin 2 → Nat) a + S1x128.size a ≤ S10x1024.size a
  inb_S10x1024_S1x128_9_512 : ∀ a, (![9, 512] : Fin 2 → Nat) a + S1x128.size a ≤ S10x1024.size a
  inb_S1024x128_S128x128_512_0 : ∀ a, (![512, 0] : Fin 2 → Nat) a + S128x128.size a ≤ S1024x128.size a
  inb_S10x1024_S1x128_0_640 : ∀ a, (![0, 640] : Fin 2 → Nat) a + S1x128.size a ≤ S10x1024.size a
  inb_S10x1024_S1x128_1_640 : ∀ a, (![1, 640] : Fin 2 → Nat) a + S1x128.size a ≤ S10x1024.size a
  inb_S10x1024_S1x128_2_640 : ∀ a, (![2, 640] : Fin 2 → Nat) a + S1x128.size a ≤ S10x1024.size a
  inb_S10x1024_S1x128_3_640 : ∀ a, (![3, 640] : Fin 2 → Nat) a + S1x128.size a ≤ S10x1024.size a
  inb_S10x1024_S1x128_4_640 : ∀ a, (![4, 640] : Fin 2 → Nat) a + S1x128.size a ≤ S10x1024.size a
  inb_S10x1024_S1x128_5_640 : ∀ a, (![5, 640] : Fin 2 → Nat) a + S1x128.size a ≤ S10x1024.size a
  inb_S10x1024_S1x128_6_640 : ∀ a, (![6, 640] : Fin 2 → Nat) a + S1x128.size a ≤ S10x1024.size a
  inb_S10x1024_S1x128_7_640 : ∀ a, (![7, 640] : Fin 2 → Nat) a + S1x128.size a ≤ S10x1024.size a
  inb_S10x1024_S1x128_8_640 : ∀ a, (![8, 640] : Fin 2 → Nat) a + S1x128.size a ≤ S10x1024.size a
  inb_S10x1024_S1x128_9_640 : ∀ a, (![9, 640] : Fin 2 → Nat) a + S1x128.size a ≤ S10x1024.size a
  inb_S1024x128_S128x128_640_0 : ∀ a, (![640, 0] : Fin 2 → Nat) a + S128x128.size a ≤ S1024x128.size a
  inb_S10x1024_S1x128_0_768 : ∀ a, (![0, 768] : Fin 2 → Nat) a + S1x128.size a ≤ S10x1024.size a
  inb_S10x1024_S1x128_1_768 : ∀ a, (![1, 768] : Fin 2 → Nat) a + S1x128.size a ≤ S10x1024.size a
  inb_S10x1024_S1x128_2_768 : ∀ a, (![2, 768] : Fin 2 → Nat) a + S1x128.size a ≤ S10x1024.size a
  inb_S10x1024_S1x128_3_768 : ∀ a, (![3, 768] : Fin 2 → Nat) a + S1x128.size a ≤ S10x1024.size a
  inb_S10x1024_S1x128_4_768 : ∀ a, (![4, 768] : Fin 2 → Nat) a + S1x128.size a ≤ S10x1024.size a
  inb_S10x1024_S1x128_5_768 : ∀ a, (![5, 768] : Fin 2 → Nat) a + S1x128.size a ≤ S10x1024.size a
  inb_S10x1024_S1x128_6_768 : ∀ a, (![6, 768] : Fin 2 → Nat) a + S1x128.size a ≤ S10x1024.size a
  inb_S10x1024_S1x128_7_768 : ∀ a, (![7, 768] : Fin 2 → Nat) a + S1x128.size a ≤ S10x1024.size a
  inb_S10x1024_S1x128_8_768 : ∀ a, (![8, 768] : Fin 2 → Nat) a + S1x128.size a ≤ S10x1024.size a
  inb_S10x1024_S1x128_9_768 : ∀ a, (![9, 768] : Fin 2 → Nat) a + S1x128.size a ≤ S10x1024.size a
  inb_S1024x128_S128x128_768_0 : ∀ a, (![768, 0] : Fin 2 → Nat) a + S128x128.size a ≤ S1024x128.size a
  inb_S10x1024_S1x128_0_896 : ∀ a, (![0, 896] : Fin 2 → Nat) a + S1x128.size a ≤ S10x1024.size a
  inb_S10x1024_S1x128_1_896 : ∀ a, (![1, 896] : Fin 2 → Nat) a + S1x128.size a ≤ S10x1024.size a
  inb_S10x1024_S1x128_2_896 : ∀ a, (![2, 896] : Fin 2 → Nat) a + S1x128.size a ≤ S10x1024.size a
  inb_S10x1024_S1x128_3_896 : ∀ a, (![3, 896] : Fin 2 → Nat) a + S1x128.size a ≤ S10x1024.size a
  inb_S10x1024_S1x128_4_896 : ∀ a, (![4, 896] : Fin 2 → Nat) a + S1x128.size a ≤ S10x1024.size a
  inb_S10x1024_S1x128_5_896 : ∀ a, (![5, 896] : Fin 2 → Nat) a + S1x128.size a ≤ S10x1024.size a
  inb_S10x1024_S1x128_6_896 : ∀ a, (![6, 896] : Fin 2 → Nat) a + S1x128.size a ≤ S10x1024.size a
  inb_S10x1024_S1x128_7_896 : ∀ a, (![7, 896] : Fin 2 → Nat) a + S1x128.size a ≤ S10x1024.size a
  inb_S10x1024_S1x128_8_896 : ∀ a, (![8, 896] : Fin 2 → Nat) a + S1x128.size a ≤ S10x1024.size a
  inb_S10x1024_S1x128_9_896 : ∀ a, (![9, 896] : Fin 2 → Nat) a + S1x128.size a ≤ S10x1024.size a
  inb_S1024x128_S128x128_896_0 : ∀ a, (![896, 0] : Fin 2 → Nat) a + S128x128.size a ≤ S1024x128.size a
  dot_S128x128_S128x128_S128x128_0_0_1_1_n_n_wf : DotDims.WF S128x128 S128x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x1024.size a ≤ S10x131072.size a
  hwx0_0 : ∀ i : grid0.Coords, EltTy.bits .f32 = 32 ∨ (Rect.block (s := S10x131072) S10x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S1280x128.size a
  hwx0_1 : ∀ i : grid0.Coords, EltTy.bits .f32 = 32 ∨ (Rect.block (s := S1280x128) S1280x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S131072x128.size a
  hwx0_3 : ∀ i : grid0.Coords, EltTy.bits .f32 = 32 ∨ (Rect.block (s := S131072x128) S1024x128.size (cc0_transform_3 i) (hinb0_3 i)).WholeWords (EltTy.packing .f32)

variable [Facts₀]

def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf

abbrev win0_0 : Pipeline.Window sig grid0 :=
  Pipeline.Window.ofSpec (Memref.whole main_v0) S10x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1280x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x10 : Shape := ⟨2, ![131072, 10]⟩
abbrev S128x10 : Shape := ⟨2, ![128, 10]⟩
abbrev S128x128 : Shape := ⟨2, ![128, 128]⟩
abbrev S131072x1x10 : Shape := ⟨3, ![131072, 1, 10]⟩
abbrev S1x128x10 : Shape := ⟨3, ![1, 128, 10]⟩
abbrev S131072x128x10 : Shape := ⟨3, ![131072, 128, 10]⟩
abbrev S_ : Shape := ⟨0, ![]⟩
abbrev S131072x128 : Shape := ⟨2, ![131072, 128]⟩

abbrev nBuf : Space → Nat
  | .hbm => 17
  | .vmem => 0
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S131072x1x10, .f32⟩
  | .hbm, ⟨4, _⟩ => ⟨S1x128x10, .f32⟩
  | .hbm, ⟨5, _⟩ => ⟨S131072x128x10, .f32⟩
  | .hbm, ⟨6, _⟩ => ⟨S131072x128x10, .f32⟩
  | .hbm, ⟨7, _⟩ => ⟨S131072x128x10, .f32⟩
  | .hbm, ⟨8, _⟩ => ⟨S131072x128x10, .f32⟩
  | .hbm, ⟨9, _⟩ => ⟨S_, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S131072x128, .f32⟩
  | .hbm, ⟨16, _⟩ => ⟨S131072x128, .f32⟩
  | _, _ => ⟨S131072x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S131072x10_S131072x1x10_0_2 : S131072x10.BroadcastsInDim S131072x1x10 (![0, 2] : Fin 2 → Fin S131072x1x10.rank)
  bcast_S128x10_S1x128x10_1_2 : S128x10.BroadcastsInDim S1x128x10 (![1, 2] : Fin 2 → Fin S1x128x10.rank)
  bcast_S131072x1x10_S131072x128x10_0_1_2 : S131072x1x10.BroadcastsInDim S131072x128x10 (![0, 1, 2] : Fin 3 → Fin S131072x128x10.rank)
  bcast_S1x128x10_S131072x128x10_0_1_2 : S1x128x10.BroadcastsInDim S131072x128x10 (![0, 1, 2] : Fin 3 → Fin S131072x128x10.rank)
  reducesTo_S131072x128x10_S131072x128_d2 : S131072x128x10.ReducesTo [2] S131072x128
  h_S_ : 0 < S_.numel
  bcast_S_S131072x128 : S_.BroadcastsInDim S131072x128 (![] : Fin 0 → Fin S131072x128.rank)
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.Spec.lean ====
/-
  The mathematics both programs compute, stated once over the extended reals.

  For points x_n (rows of a 131072 × 10 array), centres p_m (rows of a 128 × 10 array) and a 128 × 128 matrix c, the
  result is the Laplace (product-exponential) kernel matrix times c:

      out[n, q] = ∑_m exp(-(∑_d |x[n,d] - p[m,d]|)) · c[m, q].

  One program forms |p - x|, negates by subtracting from zero and adds the ten coordinate terms left to right; the
  other forms |x - p|, adds them to a zero initial value, negates and divides by one. The three small laws that join
  the two readings are here: |a - b| = |b - a| on the extended reals (with no finiteness assumption: when the two are
  equal the differences are the same term, and otherwise negation distributes over the difference), division by the
  real one, and a left-nested sum of ten terms as a sum over `Fin 10`.
-/
import Idealize.ShloMosaic.PureOps.Ideal
import Idealize.ShloMosaic.PureOps.Ideal.Laws
import Idealize.ShloMosaic.Lib.ValueIdx
import Idealize.ShloMosaic.Lib.IdealHost

noncomputable section

namespace Cert.LaplaceGram

open Idealize.ShloMosaic Idealize.ShloMosaic.ValueIdx
open scoped BigOperators

/-! ## The absolute difference -/

/-- The absolute value of a difference, as the extended reals compute it: the larger of the difference and its
    negative. -/
def gap (a b : EReal) : EReal := max (a - b) (-(a - b))

/-- The absolute difference is symmetric on ALL extended reals. If a = b both sides are one term. Otherwise the two are
    not both -∞ and not both +∞, so -(a - b) = b - a and -(b - a) = a - b, and the two maxima have swapped arguments. -/
theorem gap_comm (a b : EReal) : gap a b = gap b a := by
  unfold gap
  by_cases h : a = b
  · subst h; rfl
  · have h1 : a ≠ ⊥ ∨ b ≠ ⊥ := by
      by_contra hc; rw [not_or, not_not, not_not] at hc; exact h (hc.1.trans hc.2.symm)
    have h2 : a ≠ ⊤ ∨ b ≠ ⊤ := by
      by_contra hc; rw [not_or, not_not, not_not] at hc; exact h (hc.1.trans hc.2.symm)
    have e1 : -(a - b) = b - a := by rw [EReal.neg_sub h1 h2, sub_eq_add_neg b a, add_comm]
    have e2 : -(b - a) = a - b := by rw [EReal.neg_sub h1.symm h2.symm, sub_eq_add_neg a b, add_comm]
    rw [e1, e2, max_comm]

/-! ## Division by one, and ten terms added left to right -/

/-- Dividing by the single-precision pattern of 1.0 changes nothing. -/
theorem div_one_word (x : EReal) : Ideal.div x (Ideal.ofBits .f32 0x3F800000#32) = x := by
  rw [Ideal.ofBits_one_f32, ← EReal.coe_one, Ideal.div_coe one_ne_zero, one_div, inv_one, EReal.coe_one, mul_one]

/-- Ten terms added left to right are the sum over the ten coordinates. -/
theorem sum_ten (f : Fin 10 → EReal) :
    f 0 + f 1 + f 2 + f 3 + f 4 + f 5 + f 6 + f 7 + f 8 + f 9 = ∑ d : Fin 10, f d := by
  simp only [Fin.sum_univ_castSucc, Fin.sum_univ_zero, zero_add]
  rfl

/-! ## The specification -/

/-- The ℓ¹ distance between row `n` of `x` and row `m` of `p`. -/
def ell1 (x : (⟨2, ![131072, 10]⟩ : Shape).Idx → EReal) (p : (⟨2, ![128, 10]⟩ : Shape).Idx → EReal)
    (n : Fin 131072) (m : Fin 128) : EReal :=
  ∑ d : Fin 10, gap (x (ix2 n d)) (p (ix2 m d))

/-- Entry (n, q) of the kernel matrix times `c`. -/
def gram (x : (⟨2, ![131072, 10]⟩ : Shape).Idx → EReal) (p : (⟨2, ![128, 10]⟩ : Shape).Idx → EReal)
    (c : (⟨2, ![128, 128]⟩ : Shape).Idx → EReal) (n : Fin 131072) (q : Fin 128) : EReal :=
  ∑ m : Fin 128, Ideal.exp (-(ell1 x p n m)) * c (ix2 m q)

/-- The whole result array as one function of the three argument arrays. -/
def G (x : (⟨2, ![131072, 10]⟩ : Shape).Idx → EReal) (p : (⟨2, ![128, 10]⟩ : Shape).Idx → EReal)
    (c : (⟨2, ![128, 128]⟩ : Shape).Idx → EReal) : (⟨2, ![131072, 128]⟩ : Shape).Idx → EReal :=
  fun i => gram x p c ⟨(i 0).val, (i 0).isLt⟩ ⟨(i 1).val, (i 1).isLt⟩

theorem G_ix2 (x : (⟨2, ![131072, 10]⟩ : Shape).Idx → EReal) (p : (⟨2, ![128, 10]⟩ : Shape).Idx → EReal)
    (c : (⟨2, ![128, 128]⟩ : Shape).Idx → EReal) (n : Fin 131072) (q : Fin 128) :
    G x p c (ix2 n q) = gram x p c n q := rfl

end Cert.LaplaceGram

end
-- ==== Proof.RefValue.lean ====
/-
  The reference program's result, read one stage at a time, is the specification `G`.

  At output index (n, q) the reference's matrix product is the sum over m of its exponential stage at (n, m) times
  c[m, q]. The exponential stage at (n, m) is exp applied to the negated sum stage divided by one; the sum stage is a
  zero initial value plus the sum over the ten coordinates d of |x[n,d] - p[m,d]|, the two broadcasts reading x at
  (n, d) and p at (m, d). Division by one and the zero initial value drop out, and what is left is the
  specification's term, with the difference already in the specification's order.
-/
import proofs.«173630_g10067403342211_week1_w1_198_5_alg».proof.Proof.Gen.ReferenceIdeal.Read
import proofs.«173630_g10067403342211_week1_w1_198_5_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.LaplaceGram
open scoped BigOperators

/-- The left factor of the product at output (n, q) and contraction index m sits at (n, m). -/
theorem lidx_eq (n : Fin 131072) (q m : Fin 128) : lidx_main_v11 (ix2 n q) m = ix2 n m :=
  funext fun a => Fin.ext (by match a with | ⟨0, _⟩ => rfl | ⟨1, _⟩ => rfl)

/-- The right factor sits at (m, q). -/
theorem ridx_eq (n : Fin 131072) (q m : Fin 128) : ridx_main_v11 (ix2 n q) m = ix2 m q :=
  funext fun a => Fin.ext (by match a with | ⟨0, _⟩ => rfl | ⟨1, _⟩ => rfl)

/-- Through the two broadcasts, the point array is read at (n, d) -/
theorem xidx_eq (n : Fin 131072) (m : Fin 128) (d : Fin 10) :
    idx_main_v0 (idx_main_v2 (idx_main_v6 (ix2 n m) d)) = ix2 n d :=
  funext fun a => Fin.ext (by match a with | ⟨0, _⟩ => rfl | ⟨1, _⟩ => rfl)

/-- and the centre array at (m, d). -/
theorem pidx_eq (n : Fin 131072) (m : Fin 128) (d : Fin 10) :
    idx_main_v1 (idx_main_v3 (idx_main_v6 (ix2 n m) d)) = ix2 m d :=
  funext fun a => Fin.ext (by match a with | ⟨0, _⟩ => rfl | ⟨1, _⟩ => rfl)

/-- The exponential stage at (n, m) is exp of minus the ℓ¹ distance between row n of x and row m of p. -/
theorem stage_exp (x0 : (⟨S131072x10, .f32⟩ : BufTy).Contents (Elt Ideal)) (x1 : (⟨S128x10, .f32⟩ : BufTy).Contents (Elt Ideal))
    (n : Fin 131072) (m : Fin 128) :
    val_main_v10 (F := Ideal) x0 x1 (ix2 n m) = Ideal.exp (-(ell1 x0 x1 n m)) := by
  rw [val_main_v10_apply, val_main_v9_apply, val_main_v7_apply, val_main_v8_apply, val_main_cst_0_apply,
    val_main_v6_apply, val_main_cst_apply]
  simp only [Ideal.hostUnary_exp_def, Ideal.hostDivf_def, Ideal.hostNegf_def, Ideal.negf_def, Ideal.ofBits_def,
    Ideal.ofBits_zero_f32, zero_add, div_one_word]
  unfold ell1
  refine congrArg (fun s => Ideal.exp (-s)) (Finset.sum_congr rfl fun d _ => ?_)
  rw [val_main_v5_apply, val_main_v4_apply, val_main_v2_apply, val_main_v3_apply, val_main_v0_apply,
    val_main_v1_apply, xidx_eq, pidx_eq]
  rfl

/-- The reference's last stage is the specification. -/
theorem result_eq (x0 : (⟨S131072x10, .f32⟩ : BufTy).Contents (Elt Ideal)) (x1 : (⟨S128x10, .f32⟩ : BufTy).Contents (Elt Ideal))
    (x2 : (⟨S128x128, .f32⟩ : BufTy).Contents (Elt Ideal)) :
    val_main_v11 (F := Ideal) x0 x1 x2 = G x0 x1 x2 := by
  funext i
  obtain ⟨n, q, rfl⟩ : ∃ (n : Fin 131072) (q : Fin 128), i = ix2 n q := ⟨i 0, i 1, eq_ix2 i⟩
  rw [G_ix2, val_main_v11_apply]
  unfold gram
  refine Finset.sum_congr rfl fun m _ => ?_
  rw [lidx_eq, ridx_eq, stage_exp]

end Cert.ReferenceIdeal.RefValue

end
-- ==== Proof.Chunk.lean ====
/-
  The body of the kernel, one chunk of 128 result rows at a time.

  The body handles the 1024 rows of its block in eight chunks of 128. For a chunk it takes, for each of the ten
  coordinates d, one row of the transposed point block (128 point coordinates, along the lanes) and one 128 × 128 slab
  of the centre table (row m holds coordinate d of centre m in every lane), forms |slab - row| with the row repeated
  down the sublanes, adds the ten terms left to right, negates by subtracting from zero, exponentiates, and multiplies
  the result, contracted over its FIRST axis (the centres m), with the 128 × 128 matrix c into a zero accumulator.

  `chunk` is that computation as one function of the loaded pieces, at any float instance; `stores_eq` says the
  body's eight stored values are `chunk` of the respective loads (the generated payload names are cuts of this one
  expression, so the two sides are the same term); `chunk_apply` reads `chunk` at an index over the extended reals:
  entry (n, q) is ∑_m exp(-(∑_d |slab_d[m,n] - row_d[0,n]|)) · c[m,q].
-/
import proofs.«173630_g10067403342211_week1_w1_198_5_alg».proof.Proof.Gen.KernelIdeal.Frame
import proofs.«173630_g10067403342211_week1_w1_198_5_alg».proof.Proof.Spec
import Idealize.ShloMosaic.Lib.ValueLayout
import Idealize.ShloMosaic.Lib.Pipeline.Value
import Idealize.ShloMosaic.PureOps.Ideal.Laws

set_option maxRecDepth 16384

noncomputable section

namespace Cert.KernelIdeal.Chunk

open Cert.KernelIdeal Cert.KernelIdeal.Gen
open Idealize.ShloMosaic Idealize.ShloMosaic.TcCoe Idealize.ShloMosaic.ValueIdx Cert.LaplaceGram
open scoped BigOperators

variable {F : FTy → Type} [FloatOps F]

/-! ## The chunk as one function of its loads -/

/-- One coordinate's term: the absolute difference of a centre slab and a point row repeated down the sublanes. -/
def term (pb : Vec F S128x128 .f32) (xr : Vec F S1x128 .f32) : FVec F S128x128 .f32 :=
  absf (subf (shapeCast S128x128 pb shapeCasts_S128x128_S128x128)
    (broadcastTo S128x128 (shapeCast S1x128 xr shapeCasts_S1x128_S1x128) broadcasts_S1x128_S128x128))

/-- One chunk's stored value from the matrix `c`, the ten point rows and the ten centre slabs. -/
def chunk (c : Vec F S128x128 .f32) (xr : Fin 10 → Vec F S1x128 .f32) (pb : Fin 10 → Vec F S128x128 .f32) :
    FVec F S128x128 .f32 :=
  matmul dot_S128x128_S128x128_S128x128_0_0_1_1_n_n none
    (exp (subf (broadcast S128x128 (Scalar.ofBits .f32 0x00000000#32))
      (addf (addf (addf (addf (addf (addf (addf (addf (addf (term (pb 0) (xr 0)) (term (pb 1) (xr 1))) (term (pb 2) (xr 2))) (term (pb 3) (xr 3))) (term (pb 4) (xr 4))) (term (pb 5) (xr 5))) (term (pb 6) (xr 6))) (term (pb 7) (xr 7))) (term (pb 8) (xr 8))) (term (pb 9) (xr 9)))))
    c (constant S128x128 .f32 0x00000000#32)

/-! ## The loads of a chunk

For the chunk of result rows `o … o + 127` of the block, coordinate `d`'s point row is row `d`, lanes `o … o + 127`, of the
transposed point block, and coordinate `d`'s centre slab is rows `128 d … 128 d + 127` of the centre table. -/

theorem row_inb (d : Fin 10) (o : ℕ) (ho : o + 128 ≤ 1024) :
    ∀ a, (![d.val, o] : Fin 2 → ℕ) a + S1x128.size a ≤ S10x1024.size a :=
  Rect.inb₂ (by show d.val + 1 ≤ 10; omega) (by show o + 128 ≤ 1024; exact ho)

/-- The ten point rows of the chunk at row offset `o`. -/
def rows (x0 : Vec F S10x1024 .f32) (o : ℕ) (ho : o + 128 ≤ 1024) : Fin 10 → Vec F S1x128 .f32 :=
  fun d => View.ld x0 (Rect.unit ![d.val, o] S1x128.size (row_inb d o ho))

theorem slab_inb (d : Fin 10) :
    ∀ a, (![d.val * 128, 0] : Fin 2 → ℕ) a + S128x128.size a ≤ S1280x128.size a :=
  Rect.inb₂ (by show d.val * 128 + 128 ≤ 1280; omega) (by show 0 + 128 ≤ 128; omega)

/-- The ten centre slabs (the same for every chunk). -/
def slabs (x1 : Vec F S1280x128 .f32) : Fin 10 → Vec F S128x128 .f32 :=
  fun d => View.ld x1 (Rect.unit ![d.val * 128, 0] S128x128.size (slab_inb d))

/-- What the body leaves in the output block: its eight stores, each the chunk function of that chunk's loads. -/
theorem stores_eq (x0 : Vec F S10x1024 .f32) (x1 : Vec F S1280x128 .f32) (x2 : Vec F S128x128 .f32) :
    out0_3 x0 x1 x2 = View.canon ([⟨r0_98, chunk (View.ld x2 r0_0) (rows x0 896 (by omega)) (slabs x1)⟩,
    ⟨r0_87, chunk (View.ld x2 r0_0) (rows x0 768 (by omega)) (slabs x1)⟩,
    ⟨r0_76, chunk (View.ld x2 r0_0) (rows x0 640 (by omega)) (slabs x1)⟩,
    ⟨r0_65, chunk (View.ld x2 r0_0) (rows x0 512 (by omega)) (slabs x1)⟩,
    ⟨r0_54, chunk (View.ld x2 r0_0) (rows x0 384 (by omega)) (slabs x1)⟩,
    ⟨r0_43, chunk (View.ld x2 r0_0) (rows x0 256 (by omega)) (slabs x1)⟩,
    ⟨r0_32, chunk (View.ld x2 r0_0) (rows x0 128 (by omega)) (slabs x1)⟩,
    ⟨r0_21, chunk (View.ld x2 r0_0) (rows x0 0 (by omega)) (slabs x1)⟩] : List (View.Piece (Elt F) S1024x128 .f32)) := rfl

end Cert.KernelIdeal.Chunk

end
-- ==== Proof.ChunkAt.lean ====
/-
  The chunk function read at an index, over the extended reals.

  The product contracts the FIRST axis of its left operand: at result index (n, q) and contraction position m the left
  factor sits at (m, n) and the right at (m, q). The left factor there is exp(0 - (t_0 + … + t_9)) with
  t_d = |slab_d[m,n] - row_d[0,n]| (a shape cast to the same shape is the identity, and the row broadcast down the
  sublanes reads its one row), so the entry is ∑_m exp(-(∑_d |slab_d[m,n] - row_d[0,n]|)) · c[m,q].
-/
import proofs.«173630_g10067403342211_week1_w1_198_5_alg».proof.Proof.Chunk

noncomputable section

namespace Cert.KernelIdeal.Chunk

open Cert.KernelIdeal Cert.KernelIdeal.Gen
open Idealize.ShloMosaic Idealize.ShloMosaic.TcCoe Idealize.ShloMosaic.ValueIdx Cert.LaplaceGram
open scoped BigOperators

/-- One coordinate's term at (m, n): the absolute difference of the slab's entry and the row's n-th entry. -/
theorem term_apply (pb : Vec Ideal S128x128 .f32) (xr : Vec Ideal S1x128 .f32) (m n : Fin 128) :
    term (F := Ideal) pb xr (ix2 m n) = gap (pb (ix2 m n)) (xr (ix2 (0 : Fin 1) n)) := by
  unfold term
  rw [shapeCast_self, shapeCast_self]
  exact congrArg (fun z => gap (pb (ix2 m n)) z) (broadcastTo_1b_ab_apply xr broadcasts_S1x128_S128x128 m n)

/-! ## Where the product's factors sit -/

theorem lhs_0 (i : S128x128.Idx) (k : dot_S128x128_S128x128_S128x128_0_0_1_1_n_n.contr.Idx) :
    (dot_S128x128_S128x128_S128x128_0_0_1_1_n_n.lhsIdx i k 0).val = (k ⟨0, by decide⟩).val :=
  dot_S128x128_S128x128_S128x128_0_0_1_1_n_n.lhsIdx_val_of_single rfl i k
theorem lhs_1 (i : S128x128.Idx) (k : dot_S128x128_S128x128_S128x128_0_0_1_1_n_n.contr.Idx) :
    (dot_S128x128_S128x128_S128x128_0_0_1_1_n_n.lhsIdx i k 1).val = (i 0).val := by
  unfold DotDims.lhsIdx
  rw [dif_neg (show ¬(1 : Fin S128x128.rank) ∈ dot_S128x128_S128x128_S128x128_0_0_1_1_n_n.lhsBatch by decide), dif_pos (show (1 : Fin S128x128.rank) ∈ dot_S128x128_S128x128_S128x128_0_0_1_1_n_n.lhsNonContracting by decide)]
  rfl
theorem rhs_0 (i : S128x128.Idx) (k : dot_S128x128_S128x128_S128x128_0_0_1_1_n_n.contr.Idx) :
    (dot_S128x128_S128x128_S128x128_0_0_1_1_n_n.rhsIdx i k 0).val = (k ⟨0, by decide⟩).val :=
  dot_S128x128_S128x128_S128x128_0_0_1_1_n_n.rhsIdx_val_of_single rfl i k
theorem rhs_1 (i : S128x128.Idx) (k : dot_S128x128_S128x128_S128x128_0_0_1_1_n_n.contr.Idx) :
    (dot_S128x128_S128x128_S128x128_0_0_1_1_n_n.rhsIdx i k 1).val = (i 1).val := by
  unfold DotDims.rhsIdx
  rw [dif_neg (show ¬(1 : Fin S128x128.rank) ∈ dot_S128x128_S128x128_S128x128_0_0_1_1_n_n.rhsBatch by decide), dif_pos (show (1 : Fin S128x128.rank) ∈ dot_S128x128_S128x128_S128x128_0_0_1_1_n_n.rhsNonContracting by decide)]
  rfl

/-! ## The chunk at an index -/

/-- Entry (n, q) of a chunk: the sum over the centres m of exp(-(the ℓ¹ distance read off the slabs and rows)) times
    c[m, q]. -/
theorem chunk_apply (c : Vec Ideal S128x128 .f32) (xr : Fin 10 → Vec Ideal S1x128 .f32)
    (pb : Fin 10 → Vec Ideal S128x128 .f32) (n q : Fin 128) :
    chunk (F := Ideal) c xr pb (ix2 n q)
      = ∑ m : Fin 128, Ideal.exp (-(∑ d : Fin 10, gap (pb d (ix2 m n)) (xr d (ix2 (0 : Fin 1) n)))) * c (ix2 m q) := by
  unfold chunk
  simp only [matmul]
  rw [Ideal.matmul_constant_zero_apply, ← Equiv.sum_comp (contrEquiv1 dot_S128x128_S128x128_S128x128_0_0_1_1_n_n 128 rfl rfl).symm]
  refine Finset.sum_congr rfl fun m _ => ?_
  have hk := contrEquiv1_symm_val dot_S128x128_S128x128_S128x128_0_0_1_1_n_n 128 rfl rfl m
  have el : dot_S128x128_S128x128_S128x128_0_0_1_1_n_n.lhsIdx (ix2 n q) ((contrEquiv1 dot_S128x128_S128x128_S128x128_0_0_1_1_n_n 128 rfl rfl).symm m) = ix2 m n := funext fun a => Fin.ext (by
    match a with
    | ⟨0, _⟩ => exact (lhs_0 _ _).trans hk
    | ⟨1, _⟩ => exact lhs_1 _ _)
  have er : dot_S128x128_S128x128_S128x128_0_0_1_1_n_n.rhsIdx (ix2 n q) ((contrEquiv1 dot_S128x128_S128x128_S128x128_0_0_1_1_n_n 128 rfl rfl).symm m) = ix2 m q := funext fun a => Fin.ext (by
    match a with
    | ⟨0, _⟩ => exact (rhs_0 _ _).trans hk
    | ⟨1, _⟩ => exact rhs_1 _ _)
  rw [el, er]
  refine congrArg (· * c (ix2 m q)) ?_
  show Ideal.exp (Ideal.ofBits .f32 0x00000000#32 - (term (pb 0) (xr 0) (ix2 m n) + term (pb 1) (xr 1) (ix2 m n) + term (pb 2) (xr 2) (ix2 m n) + term (pb 3) (xr 3) (ix2 m n) + term (pb 4) (xr 4) (ix2 m n) + term (pb 5) (xr 5) (ix2 m n) + term (pb 6) (xr 6) (ix2 m n) + term (pb 7) (xr 7) (ix2 m n) + term (pb 8) (xr 8) (ix2 m n) + term (pb 9) (xr 9) (ix2 m n))) = _
  rw [Ideal.ofBits_zero_f32, zero_sub]
  simp only [term_apply]
  rw [sum_ten (fun d => gap (pb d (ix2 m n)) (xr d (ix2 (0 : Fin 1) n)))]

end Cert.KernelIdeal.Chunk

end
-- ==== Proof.Block.lean ====
/-
  The 1024 × 128 block the body leaves, as ONE function of the block index.

  The eight chunks tile the block by rows: chunk number j fills rows 128 j … 128 j + 127. Entry (n, q) of chunk j reads
  the point rows at lane 128 j + n, that is at the block's own row index r = 128 j + n, and the centre slabs at row
  128 d + m; so every chunk's entry is the same function of the block index (r, q):

      ∑_m exp(-(∑_d |T[128 d + m] - X[d, r]|)) · C[m, q],

  where X is the transposed point block, C the matrix, and T[k] the value the centre table holds in every lane of its
  row k (the table is constant along its lanes: hypothesis `hT`). The canon of pieces that all agree with one function
  is that function wherever the pieces cover, and they tile the block.
-/
import proofs.«173630_g10067403342211_week1_w1_198_5_alg».proof.Proof.ChunkAt

set_option maxRecDepth 16384

noncomputable section

namespace Cert.KernelIdeal.Block

open Cert.KernelIdeal Cert.KernelIdeal.Gen Cert.KernelIdeal.Chunk
open Idealize.ShloMosaic Idealize.ShloMosaic.TcCoe Idealize.ShloMosaic.ValueIdx Cert.LaplaceGram
open scoped BigOperators

/-- A load through a unit-stride rectangle reads, at `y`, the contents at offset plus `y` on every axis. -/
theorem ld_unit_apply {S : Shape} {Val : EltTy → Type} {e : EltTy} (X : S.Idx → Val e) (off size : Fin S.rank → ℕ)
    (inb : ∀ a, off a + size a ≤ S.size a) (y : (Rect.unit off size inb).shape.Idx) (k : S.Idx)
    (hk : ∀ a, (k a).val = off a + (y a).val) : View.ld X (Rect.unit off size inb) y = X k :=
  congrArg X (funext fun a => Fin.ext (by rw [hk a]; show off a + 1 * (y a).val = _; rw [Nat.one_mul]))

/-- Entry (r, q) of the block, from the transposed point block `X`, the centre table's row values `T` and the matrix `C`. -/
def blockAt (X : Vec Ideal S10x1024 .f32) (T : Fin 1280 → EReal) (C : Vec Ideal S128x128 .f32) (r : Fin 1024) (q : Fin 128) : EReal :=
  ∑ m : Fin 128, Ideal.exp (-(∑ d : Fin 10,
    gap (T ⟨d.val * 128 + m.val, by have := d.isLt; have := m.isLt; omega⟩) (X (ix2 d r)))) * C (ix2 m q)

/-- The block as a function of its index. -/
def blockFn (X : Vec Ideal S10x1024 .f32) (T : Fin 1280 → EReal) (C : Vec Ideal S128x128 .f32) : S1024x128.Idx → EReal :=
  fun y => blockAt X T C ⟨(y 0).val, (y 0).isLt⟩ ⟨(y 1).val, (y 1).isLt⟩

/-- The chunk stored at row offset `o` is the block function on the rows it fills. -/
theorem piece_eq (x0 : Vec Ideal S10x1024 .f32) (x1 : Vec Ideal S1280x128 .f32) (x2 : Vec Ideal S128x128 .f32)
    (T : Fin 1280 → EReal) (hT : ∀ (k : Fin 1280) (l : Fin 128), x1 (ix2 k l) = T k)
    (o : ℕ) (ho : o + 128 ≤ 1024) (inb : ∀ a, (![o, 0] : Fin 2 → ℕ) a + S128x128.size a ≤ S1024x128.size a)
    (x : (Rect.unit (s := S1024x128) ![o, 0] S128x128.size inb).shape.Idx) :
    chunk (F := Ideal) (View.ld x2 r0_0) (rows x0 o ho) (slabs x1) x
      = blockFn x0 T x2 ((Rect.unit (s := S1024x128) ![o, 0] S128x128.size inb).emb x) := by
  obtain ⟨n, q, rfl⟩ : ∃ (n q : Fin 128), x = ix2 n q := ⟨x 0, x 1, eq_ix2 x⟩
  have e : blockFn x0 T x2 ((Rect.unit (s := S1024x128) ![o, 0] S128x128.size inb).emb (ix2 n q))
      = blockAt x0 T x2 ⟨o + n.val, by have := n.isLt; omega⟩ q :=
    congrArg₂ (blockAt x0 T x2) (Fin.ext (show o + 1 * n.val = o + n.val by omega))
      (Fin.ext (show 0 + 1 * q.val = q.val by omega))
  rw [e, chunk_apply]
  unfold blockAt
  refine Finset.sum_congr rfl fun m _ => ?_
  have hc : View.ld x2 r0_0 (ix2 m q) = x2 (ix2 m q) :=
    ld_unit_apply x2 _ _ _ (ix2 m q) (ix2 m q) (fun a => by
      match a with
      | ⟨0, _⟩ => exact (Nat.zero_add _).symm
      | ⟨1, _⟩ => exact (Nat.zero_add _).symm)
  rw [hc]
  refine congrArg (fun s => Ideal.exp (-s) * x2 (ix2 m q)) (Finset.sum_congr rfl fun d _ => ?_)
  have hs : slabs x1 d (ix2 m n) = T ⟨d.val * 128 + m.val, by have := d.isLt; have := m.isLt; omega⟩ := by
    unfold slabs
    exact (ld_unit_apply x1 _ _ _ (ix2 m n) (ix2 ⟨d.val * 128 + m.val, by have := d.isLt; have := m.isLt; omega⟩ n) (fun a => by
      match a with
      | ⟨0, _⟩ => rfl
      | ⟨1, _⟩ => exact (Nat.zero_add _).symm)).trans (hT _ _)
  have hr : rows x0 o ho d (ix2 (0 : Fin 1) n) = x0 (ix2 d ⟨o + n.val, by have := n.isLt; omega⟩) := by
    unfold rows
    exact ld_unit_apply x0 _ _ _ (ix2 (0 : Fin 1) n) (ix2 d ⟨o + n.val, by have := n.isLt; omega⟩) (fun a => by
      match a with
      | ⟨0, _⟩ => rfl
      | ⟨1, _⟩ => rfl)
  exact congrArg₂ gap hs hr

/-- What the body leaves in the output block, at every index, when the centre table is constant along its lanes. -/
theorem out_apply (x0 : Vec Ideal S10x1024 .f32) (x1 : Vec Ideal S1280x128 .f32) (x2 : Vec Ideal S128x128 .f32)
    (T : Fin 1280 → EReal) (hT : ∀ (k : Fin 1280) (l : Fin 128), x1 (ix2 k l) = T k) (y : S1024x128.Idx) :
    out0_3 (F := Ideal) x0 x1 x2 y = blockFn x0 T x2 y := by
  rw [stores_eq]
  refine View.canon_apply_of_pieces (Val := Elt Ideal) (S := S1024x128) (e := .f32) (blockFn x0 T x2) _ ?_ y (cover0_3 _ _ _ _ _ _ _ _ y)
  intro p hp
  simp only [List.mem_cons, List.mem_nil_iff, or_false] at hp
  rcases hp with rfl | rfl | rfl | rfl | rfl | rfl | rfl | rfl
  · exact piece_eq x0 x1 x2 T hT 896 (by omega) inb_S1024x128_S128x128_896_0
  · exact piece_eq x0 x1 x2 T hT 768 (by omega) inb_S1024x128_S128x128_768_0
  · exact piece_eq x0 x1 x2 T hT 640 (by omega) inb_S1024x128_S128x128_640_0
  · exact piece_eq x0 x1 x2 T hT 512 (by omega) inb_S1024x128_S128x128_512_0
  · exact piece_eq x0 x1 x2 T hT 384 (by omega) inb_S1024x128_S128x128_384_0
  · exact piece_eq x0 x1 x2 T hT 256 (by omega) inb_S1024x128_S128x128_256_0
  · exact piece_eq x0 x1 x2 T hT 128 (by omega) inb_S1024x128_S128x128_128_0
  · exact piece_eq x0 x1 x2 T hT 0 (by omega) inb_S1024x128_S128x128_0_0

end Cert.KernelIdeal.Block

end
-- ==== Proof.Whole.lean ====
/-
  From the block each grid point writes to the whole result array.

  Grid point t (of 128) works on rows 1024 t … 1024 t + 1023 of the result. Its three input blocks are: columns
  1024 t … 1024 t + 1023 of the transposed point array (so entry (d, r) is x[1024 t + r, d]); the whole centre table,
  whose row 128 d + m holds p[m, d] in every lane (the table is the transposed centre array, given a unit axis,
  repeated along it 128 times and flattened); and the whole matrix c. Feeding these to the body's block function, and
  using |p - x| = |x - p|, the block written at point t is block t of the specification `G` of the three argument
  arrays. The 128 blocks tile the result array by rows (row i lies in the block of point i / 1024), so the array ends
  at `G`.
-/
import proofs.«173630_g10067403342211_week1_w1_198_5_alg».proof.Proof.Gen.KernelIdeal.Value
import proofs.«173630_g10067403342211_week1_w1_198_5_alg».proof.Proof.Block
import Idealize.ShloMosaic.Lib.StableHlo.Run
import Idealize.ShloMosaic.Lib.ValueLayout

set_option maxRecDepth 16384

noncomputable section

namespace Cert.KernelIdeal.Whole

open Cert.KernelIdeal Cert.KernelIdeal.Gen Cert.KernelIdeal.Block
open Idealize.ShloMosaic Idealize.ShloMosaic.TcCoe Idealize.SL.Sem Idealize.ShloMosaic.StableHlo
open Idealize.ShloMosaic.ValueIdx Cert.LaplaceGram
open Idealize.ShloMosaic.Pipeline (Dat)
open scoped BigOperators

variable (m : (ℓ : Loc nD τ sig) → Buf (Elt Ideal) ℓ) (ρ : Dev nD → PrngReg)

/-- The point array, the centre array and the matrix as launched on core `c`. -/
abbrev xs (c : Dev nD) : S131072x10.Idx → EReal := m ((c : Thread nD τ).loc main_arg0)
abbrev ps (c : Dev nD) : S128x10.Idx → EReal := m ((c : Thread nD τ).loc main_arg1)
abbrev cs (c : Dev nD) : S128x128.Idx → EReal := m ((c : Thread nD τ).loc main_arg2)

/-! ## The two arrays the host writes before the region -/

/-- The first window's array is the point array transposed. -/
theorem V_v0 (c : Dev nD) : (V m c main_v0 : S10x131072.Idx → EReal)
    = transpose S10x131072 [1, 0] (xs m c) transposes_S131072x10_S10x131072_1_0 := by
  dsimp only [Gen.V, Gen.hostOps0]; after_results

/-- Entry (d, N) of it is x[N, d]. -/
theorem V_v0_apply (c : Dev nD) (d : Fin 10) (N : Fin 131072) :
    (V m c main_v0 : S10x131072.Idx → EReal) (ix2 d N) = xs m c (ix2 N d) := by
  rw [V_v0]
  exact transpose_ix2_apply _ _ d N

/-- The second window's array is the centre table: the centre array transposed, given a trailing unit axis, repeated
    128 times along it, and flattened to 1280 rows. -/
theorem V_v4 (c : Dev nD) : (V m c main_v4 : S1280x128.Idx → EReal)
    = shapeCast S1280x128 (broadcastInDim S10x128x128 ![0, 1, 2] bcast_S10x128x1_S10x128x128_0_1_2
        (broadcastInDim S10x128x1 ![0, 1] bcast_S10x128_S10x128x1_0_1
          (transpose S10x128 [1, 0] (ps m c) transposes_S128x10_S10x128_1_0))) shapeCasts_S10x128x128_S1280x128 := by
  dsimp only [Gen.V, Gen.hostOps0]; after_results; rfl

/-- Row k of the table holds p[k mod 128, k div 128] in every lane. -/
theorem V_v4_apply (c : Dev nD) (k : Fin 1280) (l : Fin 128) :
    (V m c main_v4 : S1280x128.Idx → EReal) (ix2 k l)
      = ps m c (ix2 ⟨k.val % 128, Nat.mod_lt _ (by decide)⟩ ⟨k.val / 128, by have := k.isLt; omega⟩) := by
  have hk : k.val < 1280 := k.isLt
  have hl : l.val < 128 := l.isLt
  rw [V_v4]
  refine (shapeCast_apply _ shapeCasts_S10x128x128_S1280x128 (ix2 k l)
    (ix3 (⟨k.val / 128, by omega⟩ : Fin 10) (⟨k.val % 128, Nat.mod_lt _ (by decide)⟩ : Fin 128) l) ?_).trans ?_
  · rw [Shape.rowMajor_val_three, Shape.rowMajor_val_two]
    show (k.val / 128 * 128 + k.val % 128) * 128 + l.val = k.val * 128 + l.val
    omega
  refine (broadcastInDim_apply _ bcast_S10x128x1_S10x128x128_0_1_2 _ _
    (ix3 (⟨k.val / 128, by omega⟩ : Fin 10) (⟨k.val % 128, Nat.mod_lt _ (by decide)⟩ : Fin 128) (0 : Fin 1)) (fun a => by
      match a with
      | ⟨0, _⟩ => show k.val / 128 = if (10 : Nat) = 1 then 0 else k.val / 128; rw [if_neg (by decide)]
      | ⟨1, _⟩ => show k.val % 128 = if (128 : Nat) = 1 then 0 else k.val % 128; rw [if_neg (by decide)]
      | ⟨2, _⟩ => show 0 = if (1 : Nat) = 1 then 0 else l.val; rw [if_pos rfl])).trans ?_
  refine (broadcastInDim_apply _ bcast_S10x128_S10x128x1_0_1 _ _
    (ix2 (⟨k.val / 128, by omega⟩ : Fin 10) (⟨k.val % 128, Nat.mod_lt _ (by decide)⟩ : Fin 128)) (fun a => by
      match a with
      | ⟨0, _⟩ => show k.val / 128 = if (10 : Nat) = 1 then 0 else k.val / 128; rw [if_neg (by decide)]
      | ⟨1, _⟩ => show k.val % 128 = if (128 : Nat) = 1 then 0 else k.val % 128; rw [if_neg (by decide)])).trans ?_
  exact transpose_ix2_apply _ _ _ _

/-! ## The body's block function at a point is a block of `G` -/

/-- With the point block reading x at rows `1024 tt + r`, the table reading p, and the matrix block reading c, entry
    (r, q) of the body's block is entry (1024 tt + r, q) of the specification. The absolute difference is taken the other
    way round on the two sides. -/
theorem block_is_G (a0 : S131072x10.Idx → EReal) (a1 : S128x10.Idx → EReal) (a2 : S128x128.Idx → EReal)
    (X : Vec Ideal S10x1024 .f32) (T : Fin 1280 → EReal) (C : Vec Ideal S128x128 .f32) (tt : ℕ) (htt : tt < 128)
    (hX : ∀ (d : Fin 10) (r : Fin 1024), X (ix2 d r) = a0 (ix2 ⟨tt * 1024 + r.val, by have := r.isLt; omega⟩ d))
    (hT : ∀ (d : Fin 10) (mm : Fin 128),
      T ⟨d.val * 128 + mm.val, by have := d.isLt; have := mm.isLt; omega⟩ = a1 (ix2 mm d))
    (hC : ∀ mm q : Fin 128, C (ix2 mm q) = a2 (ix2 mm q)) (r : Fin 1024) (q : Fin 128) :
    blockAt X T C r q = gram a0 a1 a2 ⟨tt * 1024 + r.val, by have := r.isLt; omega⟩ q := by
  unfold blockAt gram ell1
  refine Finset.sum_congr rfl fun mm _ => ?_
  rw [hC]
  refine congrArg (fun s => Ideal.exp (-s) * a2 (ix2 mm q)) (Finset.sum_congr rfl fun d _ => ?_)
  rw [hT, hX, gap_comm]

/-! ## Where the windows' blocks sit -/

/-- The printed index maps over the grid: the point window moves along the columns with the point, the table and the
    matrix stay, the result window moves along the rows. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The point block at `t` reads x at rows `1024 t + r`. -/
theorem xblk_apply (c : Dev nD) (t : Fin cfg0.N) (d : Fin 10) (r : Fin 1024) :
    (iblk m c 0 t : S10x1024.Idx → EReal) (ix2 d r)
      = xs m c (ix2 ⟨t.val * 1024 + r.val, by have := t.isLt; have := r.isLt; show t.val * 1024 + r.val < 131072; have h : t.val < 128 := t.isLt; omega⟩ d) := by
  obtain ⟨e0, e1, -, -, -, -, -, -⟩ := idx_facts t
  have ht : t.val < 128 := t.isLt
  have hr : r.val < 1024 := r.isLt
  have hd : d.val < 10 := d.isLt
  show (V m c main_v0 : S10x131072.Idx → EReal) (((cfg0.win 0).blk t).view.emb (ix2 d r)) = _
  have hi : ((cfg0.win 0).blk t).view.emb (ix2 d r) = ix2 d (⟨t.val * 1024 + r.val, by omega⟩ : Fin 131072) := by
    funext a; apply Fin.ext
    match a with
    | ⟨0, _⟩ => show win0_0.index t (0 : Fin 2) * 10 + 1 * d.val = d.val; omega
    | ⟨1, _⟩ => show win0_0.index t (1 : Fin 2) * 1024 + 1 * r.val = t.val * 1024 + r.val; omega
  rw [hi]
  exact V_v0_apply m c d _

/-- The table block at `t` is the whole table: row k holds p[k mod 128, k div 128] in every lane. -/
theorem tblk_apply (c : Dev nD) (t : Fin cfg0.N) (k : Fin 1280) (l : Fin 128) :
    (iblk m c 1 t : S1280x128.Idx → EReal) (ix2 k l)
      = ps m c (ix2 ⟨k.val % 128, Nat.mod_lt _ (by decide)⟩ ⟨k.val / 128, by have := k.isLt; omega⟩) := by
  obtain ⟨-, -, e2, e3, -, -, -, -⟩ := idx_facts t
  have hk : k.val < 1280 := k.isLt
  have hl : l.val < 128 := l.isLt
  show (V m c main_v4 : S1280x128.Idx → EReal) (((cfg0.win 1).blk t).view.emb (ix2 k l)) = _
  have hi : ((cfg0.win 1).blk t).view.emb (ix2 k l) = ix2 k l := by
    funext a; apply Fin.ext
    match a with
    | ⟨0, _⟩ => show win0_1.index t (0 : Fin 2) * 1280 + 1 * k.val = k.val; omega
    | ⟨1, _⟩ => show win0_1.index t (1 : Fin 2) * 128 + 1 * l.val = l.val; omega
  rw [hi]
  exact V_v4_apply m c k l

/-- The matrix block at `t` is the whole matrix. -/
theorem cblk_apply (c : Dev nD) (t : Fin cfg0.N) (mm q : Fin 128) :
    (iblk m c 2 t : S128x128.Idx → EReal) (ix2 mm q) = cs m c (ix2 mm q) := by
  obtain ⟨-, -, -, -, e4, e5, -, -⟩ := idx_facts t
  have hm : mm.val < 128 := mm.isLt
  have hq : q.val < 128 := q.isLt
  show (V m c main_arg2 : S128x128.Idx → EReal) (((cfg0.win 2).blk t).view.emb (ix2 mm q)) = _
  have hi : ((cfg0.win 2).blk t).view.emb (ix2 mm q) = ix2 mm q := by
    funext a; apply Fin.ext
    match a with
    | ⟨0, _⟩ => show win0_2.index t (0 : Fin 2) * 128 + 1 * mm.val = mm.val; omega
    | ⟨1, _⟩ => show win0_2.index t (1 : Fin 2) * 128 + 1 * q.val = q.val; omega
  rw [hi, V_main_arg2]

/-! ## What each point writes back, the cover, and the array after the run -/

/-- Point `t` writes back block `t` of the specification of the argument arrays. -/
theorem flushed_eq (c : Dev nD) (t : Fin cfg0.N) :
    (dats m 0 c).flushed 3 t = ((cfg0.win 3).blk t).view.read (Elt Ideal) (G (xs m c) (ps m c) (cs m c)) := by
  obtain ⟨-, -, -, -, -, -, e6, e7⟩ := idx_facts t
  have ht : t.val < 128 := t.isLt
  rw [Value.flushed3]
  funext y
  show out0_3 (F := Ideal) (iblk m c 0 t) (iblk m c 1 t) (iblk m c 2 t) y
    = G (xs m c) (ps m c) (cs m c) (((cfg0.win 3).blk t).view.emb y)
  have hy0 : (y 0).val < 1024 := (y 0).isLt
  have hy1 : (y 1).val < 128 := (y 1).isLt
  refine (out_apply (iblk m c 0 t) (iblk m c 1 t) (iblk m c 2 t)
    (fun k => ps m c (ix2 ⟨k.val % 128, Nat.mod_lt _ (by decide)⟩ ⟨k.val / 128, by have := k.isLt; omega⟩))
    (fun k l => tblk_apply m c t k l) y).trans ?_
  refine (block_is_G (xs m c) (ps m c) (cs m c) (iblk m c 0 t) _ (iblk m c 2 t) t.val ht
    (fun d r => xblk_apply m c t d r)
    (fun d mm => congrArg (ps m c) (funext fun a => Fin.ext (by
      have hd : d.val < 10 := d.isLt
      have hm : mm.val < 128 := mm.isLt
      match a with
      | ⟨0, _⟩ => show (d.val * 128 + mm.val) % 128 = mm.val; omega
      | ⟨1, _⟩ => show (d.val * 128 + mm.val) / 128 = d.val; omega)))
    (fun mm q => cblk_apply m c t mm q) ⟨(y 0).val, hy0⟩ ⟨(y 1).val, hy1⟩).trans ?_
  refine congrArg₂ (gram (xs m c) (ps m c) (cs m c)) (Fin.ext ?_) (Fin.ext ?_)
  · show t.val * 1024 + (y 0).val = win0_3.index t (0 : Fin 2) * 1024 + 1 * (y 0).val
    omega
  · show (y 1).val = win0_3.index t (1 : Fin 2) * 128 + 1 * (y 1).val
    omega

/-- An index of the result array is in point `t`'s block iff each coordinate is in the block's range on its axis. -/
theorem mem_blk (t : Fin cfg0.N) (i : S131072x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v5).slice (win0_3.rect t)).set ↔ _
  rw [View.set_slice_whole, Rect.mem_set_unit]
  exact Iff.rfl

/-- Every row of the result array lies in the block of the point numbered by the row divided by 1024. -/
theorem cover (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  let t : Fin cfg0.N := ⟨(i 0).val / 1024, by show (i 0).val / 1024 < 128; omega⟩
  obtain ⟨-, -, -, -, -, -, e6, e7⟩ := idx_facts t
  have ht : t.val = (i 0).val / 1024 := rfl
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 128 ≤ (i 1).val ∧ (i 1).val < win0_3.index t (1 : Fin 2) * 128 + 128; omega

/-- The result array after the run is the specification of the argument arrays. -/
theorem final (c : Dev nD) : (dats m 0 c).arrAt 3 cfg0.N = G (xs m c) (ps m c) (cs m c) :=
  (dats m 0 c).arrAt_eq_of_cover 3 (G (xs m c) (ps m c) (cs m c)) (fun t _ => flushed_eq m c t) (cover)

/-- The kernel's run: the result array ends at the specification of the arguments, which are unchanged. -/
theorem run : θ_run defs (onTc (τ := τ) (main (F := Ideal))) ⟨m, fun _ => 0, ρ⟩ fun r => ∀ c : Dev nD,
      r.2.mem ((c : Thread nD τ).loc main_v5) = G (xs m c) (ps m c) (cs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The kernel and its reference compute one function over the extended reals.

  Both take points x (131072 × 10), centres p (128 × 10) and a matrix c (128 × 128) and return

      out[n, q] = ∑_m exp(-(∑_d |x[n,d] - p[m,d]|)) · c[m, q],

  the Laplace product-kernel matrix between points and centres, times c (`Cert.LaplaceGram.G`).

  The reference forms |x - p| over a 131072 × 128 × 10 array, sums the last axis onto a zero initial value, negates,
  divides by one, exponentiates, and multiplies by c. Read one stage at a time its result is `G`
  (`Cert.ReferenceIdeal.RefValue.result_eq`): division by one and the zero initial value drop out.

  The kernel works on the transposed point array and on a table holding p[m, d] in every lane of its row 128 d + m, in
  128 grid steps of 1024 result rows, each step in eight chunks of 128 rows: for a chunk it adds the ten terms
  |table - point row| left to right, subtracts the sum from zero, exponentiates, and contracts the first axis of that
  128 × 128 array against c. Every chunk's entries are one function of the block index, the eight chunks tile the block,
  the 128 blocks tile the result array, and with |p - x| = |x - p| (true of all extended reals) the array ends at `G`
  (`Cert.KernelIdeal.Whole.run`). No law used needs the inputs to be finite, so the precondition is never opened.

  The ideal pass rewrote nothing, so there is nothing to preserve; each kernel program's frame is its generated frame,
  and the reference's frame is its generated run with the result dropped.
-/
import proofs.«173630_g10067403342211_week1_w1_198_5_alg».proof.Defs
import proofs.«173630_g10067403342211_week1_w1_198_5_alg».proof.Proof.Gen.Kernel
import proofs.«173630_g10067403342211_week1_w1_198_5_alg».proof.Proof.Gen.Kernel.Skeleton
import proofs.«173630_g10067403342211_week1_w1_198_5_alg».proof.Proof.Gen.Kernel.Launch
import proofs.«173630_g10067403342211_week1_w1_198_5_alg».proof.Proof.Gen.Kernel.Points
import proofs.«173630_g10067403342211_week1_w1_198_5_alg».proof.Proof.Gen.Kernel.Frame
import proofs.«173630_g10067403342211_week1_w1_198_5_alg».proof.Proof.Gen.KernelIdeal
import proofs.«173630_g10067403342211_week1_w1_198_5_alg».proof.Proof.Gen.KernelIdeal.Skeleton
import proofs.«173630_g10067403342211_week1_w1_198_5_alg».proof.Proof.Gen.KernelIdeal.Launch
import proofs.«173630_g10067403342211_week1_w1_198_5_alg».proof.Proof.Gen.KernelIdeal.Points
import proofs.«173630_g10067403342211_week1_w1_198_5_alg».proof.Proof.Gen.KernelIdeal.Frame
import proofs.«173630_g10067403342211_week1_w1_198_5_alg».proof.Proof.Gen.ReferenceIdeal
import proofs.«173630_g10067403342211_week1_w1_198_5_alg».proof.Proof.Gen.Pre_finite_inputs
import proofs.«173630_g10067403342211_week1_w1_198_5_alg».proof.Proof.Gen.KernelIdeal.Value
import proofs.«173630_g10067403342211_week1_w1_198_5_alg».proof.Proof.Gen.ReferenceIdeal.Run
import proofs.«173630_g10067403342211_week1_w1_198_5_alg».proof.Proof.Gen.ReferenceIdeal.Read
import proofs.«173630_g10067403342211_week1_w1_198_5_alg».proof.Proof.RefValue
import proofs.«173630_g10067403342211_week1_w1_198_5_alg».proof.Proof.Whole
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- From memories that agree on the three arguments, the kernel's result array and the reference's both end at the
    specification `G` of those arguments. -/
theorem algebraic : Cert.algebraic_KernelIdeal_ReferenceIdeal := by
  intro m ρ m' ρ' _ hagree
  refine ⟨fun c => Cert.LaplaceGram.G (Cert.KernelIdeal.Whole.xs m c) (Cert.KernelIdeal.Whole.ps m c)
    (Cert.KernelIdeal.Whole.cs m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
